-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  reduces_S1024x64_S1024 : S1024x64.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.GaussSpec.lean ====
/-
  The Gaussian kernel matrix of two families of 64-dimensional points, as one function over the extended reals.

  For points u and v the entry is  one · exp (−½ · max (‖u‖² + ‖v‖² − two · ⟨u, v⟩, zero)),  where ‖u‖² = ⟨u, u⟩ and
  ⟨u, v⟩ = ∑ₖ uₖ · vₖ, and where one, −½, two and zero stand for the values the four 32-bit words 0x3F800000,
  0xBF000000, 0x40000000 and 0x00000000 denote. The words are kept as they are: both programs spell the same four, so
  what each denotes never matters. The squared distance is spelt by the expansion ‖u‖² + ‖v‖² − 2⟨u, v⟩, the sum of the
  two squared norms first and the doubled inner product taken off it afterwards, and clamped at zero from below.

  Entry (p, q) of the matrix of an [n, 64] family `a` and an [n', 64] family `b` takes u = row p of `a` and v = row q
  of `b`.
-/
import Idealize.ShloMosaic.PureOps.Ideal.Laws
import Idealize.ShloMosaic.Lib.ValueIdx

noncomputable section

open scoped BigOperators

namespace Cert.Gauss

open Idealize.ShloMosaic Idealize.ShloMosaic.ValueIdx

/-- Row `r` of an [n, 64] array: the point whose k-th coordinate is the entry (r, k). -/
def row {n : Nat} (x : (⟨2, ![n, 64]⟩ : Shape).Idx → EReal) (r : Fin n) : Fin 64 → EReal :=
  fun k => x (ix2 r k)

/-- The inner product of two points: ⟨u, v⟩ = ∑ₖ uₖ · vₖ. -/
def inner (u v : Fin 64 → EReal) : EReal := ∑ k : Fin 64, u k * v k

/-- The Gaussian of the squared distance between two points, the distance expanded as ‖u‖² + ‖v‖² − 2⟨u, v⟩ and
    clamped at zero. -/
def gauss (u v : Fin 64 → EReal) : EReal :=
  Ideal.ofBits .f32 0x3F800000#32
    * Ideal.exp (Ideal.ofBits .f32 0xBF000000#32
        * max (inner u u + inner v v - Ideal.ofBits .f32 0x40000000#32 * inner u v) (Ideal.ofBits .f32 0x00000000#32))

/-- The whole matrix: entry (p, q) is the Gaussian of row p of `a` and row q of `b`. -/
def gram {n n' : Nat} (a : (⟨2, ![n, 64]⟩ : Shape).Idx → EReal) (b : (⟨2, ![n', 64]⟩ : Shape).Idx → EReal) :
    (⟨2, ![n, n']⟩ : Shape).Idx → EReal :=
  fun i => gauss (row a (i 0)) (row b (i 1))

/-- The matrix at an index given by its coordinates. -/
theorem gram_ix2 {n n' : Nat} (a : (⟨2, ![n, 64]⟩ : Shape).Idx → EReal) (b : (⟨2, ![n', 64]⟩ : Shape).Idx → EReal)
    (p : Fin n) (q : Fin n') : gram a b (ix2 p q) = gauss (row a p) (row b q) := rfl

end Cert.Gauss

end
-- ==== Proof.GaussPayload.lean ====
/-
  What the kernel body stores, entry by entry.

  From a [1024, 64] block `x0` of the first family and a [1024, 64] block `x1` of the second the body forms, for the
  [1024, 1024] tile it stores:
    · the contraction of the two blocks along their second axes into a zero accumulator — entry (p, q) is
      ∑ₖ x0[p, k] · x1[q, k], the narrowing of both operands to a shorter float format being the identity on the
      extended reals;
    · each block's row sums of squares, ∑ₖ x[r, k]², kept as a column [1024, 1]; the first family's column is broadcast
      along the rows of the tile, so at (p, q) it reads row p; the second family's column is transposed to a row
      [1, 1024] and broadcast down the columns, so at (p, q) it reads row q;
    · and from these, pointwise, one · exp (−½ · max ((‖x0ₚ‖² + ‖x1_q‖²) − two · ⟨x0ₚ, x1_q⟩, zero)).
  So entry (p, q) of the stored tile is the Gaussian of row p of `x0` and row q of `x1`.
-/
import proofs.«105159_j58720792871618_1_alg».proof.Proof.Gen.KernelIdeal.Skeleton
import proofs.«105159_j58720792871618_1_alg».proof.Proof.GaussSpec
import Idealize.ShloMosaic.Lib.Pipeline.Value
import Idealize.ShloMosaic.Lib.ValueLayout

noncomputable section

open scoped BigOperators

namespace Cert.Gauss.Payload

open Idealize.ShloMosaic Idealize.ShloMosaic.ValueIdx Cert.KernelIdeal Cert.KernelIdeal.Gen Cert.Gauss

/-! ## A row's sum of squares -/

/-- The sum over the second axis of the squares of a [1024, 64] block, at row `r`, is ⟨x_r, x_r⟩. -/
theorem rowsum_sq_at (x : FVec Ideal S1024x64 .f32) (r : Fin 1024) :
    multiReduction .add [1] S1024 (mulf x x) 0x00000000#32 reduces_S1024x64_S1024 (.inl rfl) rfl (ix1 r)
      = inner (row x r) (row x r) := by
  refine (Ideal.multiReduction_add_single (mulf x x) 0x00000000#32 reduces_S1024x64_S1024 (.inl rfl) rfl (ix1 r)).trans ?_
  refine Finset.sum_congr rfl fun k _ => ?_
  exact congrArg (fun i => x i * x i)
    (funext fun a => Fin.ext (by match a with | ⟨0, _⟩ => rfl | ⟨1, _⟩ => rfl))

/-! ## The two layouts of a vector of 1024 row values -/

variable {α : Type}

/-- A vector [1024] kept as a column [1024, 1] reads, at (r, 0), its entry r. -/
theorem column_at (v : S1024.Idx → α) (r : Fin 1024) (u : Fin 1) :
    shapeCast S1024x1 v shapeCasts_S1024_S1024x1 (ix2 r u) = v (ix1 r) :=
  shapeCast_apply v shapeCasts_S1024_S1024x1 _ _ (by
    have hu : u.val = 0 := by omega
    rw [Shape.rowMajor_val_one, Shape.rowMajor_val_two]
    show r.val = r.val * 1 + u.val
    rw [hu, Nat.mul_one, Nat.add_zero])

/-- The column broadcast along the rows of the [1024, 1024] tile reads, at (p, q), the vector's entry p. -/
theorem column_bcast_at (v : S1024.Idx → α) (p q : Fin 1024) :
    broadcastTo S1024x1024 (shapeCast S1024x1 v shapeCasts_S1024_S1024x1) broadcasts_S1024x1_S1024x1024 (ix2 p q)
      = v (ix1 p) := by
  refine (broadcastTo_apply (shapeCast S1024x1 v shapeCasts_S1024_S1024x1) broadcasts_S1024x1_S1024x1024 (ix2 p q)
    (ix2 p (0 : Fin 1)) fun a => ?_).trans (column_at v p 0)
  match a with
  | ⟨0, _⟩ => show p.val = if (1024 : Nat) = 1 then 0 else p.val; rw [if_neg (by decide)]
  | ⟨1, _⟩ => show 0 = if (1 : Nat) = 1 then 0 else q.val; rw [if_pos rfl]

/-- The column transposed to a row [1, 1024] and broadcast down the columns of the tile reads, at (p, q), the vector's
    entry q. -/
theorem row_bcast_at (v : S1024.Idx → α) (p q : Fin 1024) :
    broadcastTo S1024x1024
        (transpose S1x1024 [1, 0] (shapeCast S1024x1 v shapeCasts_S1024_S1024x1) transposes_S1024x1_p1_0_S1x1024)
        broadcasts_S1x1024_S1024x1024 (ix2 p q)
      = v (ix1 q) :=
  (broadcastTo_1b_ab_apply _ broadcasts_S1x1024_S1024x1024 p q).trans
    ((transpose_ix2_apply (shapeCast S1024x1 v shapeCasts_S1024_S1024x1) transposes_S1024x1_p1_0_S1x1024 (0 : Fin 1) q).trans
      (column_at v q 0))

/-! ## The contraction of the two blocks along their second axes -/

/-- The contraction reads its left operand's first axis at the output's row … -/
theorem dot_lhs_0 (i : S1024x1024.Idx) (c : dot_S1024x64_S1024x64_S1024x1024_1_1_0_0_n_n.contr.Idx) :
    (dot_S1024x64_S1024x64_S1024x1024_1_1_0_0_n_n.lhsIdx i c 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- … and its second axis at the contracted coordinate; -/
theorem dot_lhs_1 (i : S1024x1024.Idx) (c : dot_S1024x64_S1024x64_S1024x1024_1_1_0_0_n_n.contr.Idx) :
    (dot_S1024x64_S1024x64_S1024x1024_1_1_0_0_n_n.lhsIdx i c 1).val = (c ⟨0, by decide⟩).val :=
  dot_S1024x64_S1024x64_S1024x1024_1_1_0_0_n_n.lhsIdx_val_of_single rfl i c
/-- its right operand's first axis at the output's column … -/
theorem dot_rhs_0 (i : S1024x1024.Idx) (c : dot_S1024x64_S1024x64_S1024x1024_1_1_0_0_n_n.contr.Idx) :
    (dot_S1024x64_S1024x64_S1024x1024_1_1_0_0_n_n.rhsIdx i c 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- … and its second axis at the contracted coordinate. -/
theorem dot_rhs_1 (i : S1024x1024.Idx) (c : dot_S1024x64_S1024x64_S1024x1024_1_1_0_0_n_n.contr.Idx) :
    (dot_S1024x64_S1024x64_S1024x1024_1_1_0_0_n_n.rhsIdx i c 1).val = (c ⟨0, by decide⟩).val :=
  dot_S1024x64_S1024x64_S1024x1024_1_1_0_0_n_n.rhsIdx_val_of_single rfl i c

/-- Entry (p, q) of the contraction into a zero accumulator is ⟨x0ₚ, x1_q⟩: the sum over the contracted coordinate,
    re-indexed by that coordinate itself, of left operand at (p, k) times right operand at (q, k). -/
theorem cross_at {φ₁ φ₂ : FTy} (l : FVec Ideal S1024x64 φ₁) (r : FVec Ideal S1024x64 φ₂) (p q : Fin 1024) :
    FloatOps.matmul dot_S1024x64_S1024x64_S1024x1024_1_1_0_0_n_n none l r (constant S1024x1024 .f32 0x00000000#32) (ix2 p q)
      = ∑ k : Fin 64, l (ix2 p k) * r (ix2 q k) := by
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact dot_lhs_0 _ _
    | ⟨1, _⟩ => exact (dot_lhs_1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact dot_rhs_0 _ _
    | ⟨1, _⟩ => exact (dot_rhs_1 _ _).trans hk)
  rw [el, er]

/-! ## The stored tile -/

/-- Entry (p, q) of what the body stores is the Gaussian of row p of the first block and row q of the second. -/
theorem payload_at (x0 x1 : Vec Ideal S1024x64 .f32) (p q : Fin 1024) :
    k0_pay1 (F := Ideal) x0 x1 (ix2 p q) = gauss (row x0 p) (row x1 q) := by
  unfold k0_pay1
  show Ideal.ofBits .f32 0x3F800000#32 * Ideal.exp (Ideal.ofBits .f32 0xBF000000#32 *
      max ((broadcastTo S1024x1024
              (shapeCast S1024x1
                (multiReduction .add [1] S1024 (mulf x0 x0) 0x00000000#32 reduces_S1024x64_S1024 (.inl rfl) rfl)
                shapeCasts_S1024_S1024x1)
              broadcasts_S1024x1_S1024x1024 (ix2 p q)
            + broadcastTo S1024x1024
              (transpose S1x1024 [1, 0]
                (shapeCast S1024x1
                  (multiReduction .add [1] S1024 (mulf x1 x1) 0x00000000#32 reduces_S1024x64_S1024 (.inl rfl) rfl)
                  shapeCasts_S1024_S1024x1)
                transposes_S1024x1_p1_0_S1x1024)
              broadcasts_S1x1024_S1024x1024 (ix2 p q))
          - Ideal.ofBits .f32 0x40000000#32
            * FloatOps.matmul dot_S1024x64_S1024x64_S1024x1024_1_1_0_0_n_n none (truncf .bf16 x0 bitsLt_bf16_f32) (truncf .bf16 x1 bitsLt_bf16_f32)
                (constant S1024x1024 .f32 0x00000000#32) (ix2 p q))
        (Ideal.ofBits .f32 0x00000000#32)) = _
  rw [column_bcast_at, row_bcast_at, rowsum_sq_at, rowsum_sq_at, cross_at]
  rfl

end Cert.Gauss.Payload

end
-- ==== Proof.GaussTiles.lean ====
/-
  From tiles to the whole matrix.

  The 8 × 8 grid writes the [8192, 8192] result tile by tile: the point with block coordinates (I, J) writes rows
  1024·I … 1024·I + 1023 and columns 1024·J … 1024·J + 1023. At that point the first input window holds rows
  1024·I … of the first family (all 64 coordinates) and the second window rows 1024·J … of the second family. So entry
  (p, q) of the tile — the Gaussian of row p of the first block and row q of the second — is the Gaussian of row
  1024·I + p of the first family and row 1024·J + q of the second: the tile is the (I, J) block of the Gaussian kernel
  matrix of the two whole families. Every index (r, s) lies in the tile (r / 1024, s / 1024), and some point has those
  block coordinates, so after the run the result array is that matrix.
-/
import proofs.«105159_j58720792871618_1_alg».proof.Proof.Gen.KernelIdeal.Value
import proofs.«105159_j58720792871618_1_alg».proof.Proof.GaussPayload

noncomputable section

namespace Cert.Gauss.Tiles

open Cert.KernelIdeal Cert.KernelIdeal.Gen Cert.KernelIdeal.Value Idealize.ShloMosaic Idealize.ShloMosaic.TcCoe Idealize.SL.Sem
open Idealize.ShloMosaic.ValueIdx Cert.Gauss
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where the input windows sit against the output tile, at every grid point: the first window's row block is the
    tile's row block, the second window's row block is the tile's column block, and both take all 64 coordinates. -/
theorem windows_of_tile : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every pair of block coordinates is some grid point's. -/
theorem point_of_tile : ∀ (I J : Fin 8), ∃ t : Fin cfg0.N, win0_2.index t = ![I.val, J.val] :=
  (by decide +kernel : ∀ (I J : Fin 8), ∃ t : Fin grid0.N, win0_2.index t = ![I.val, J.val])

/-- The whole result: the Gaussian kernel matrix of the two argument arrays as the region finds them. -/
abbrev result (c : Dev nD) : S8192x8192.Idx → EReal := gram (V m c main_arg0) (V m c main_arg1)

/-- What a grid point writes back is its tile of the Gaussian kernel matrix of the two whole families. -/
theorem flushed_eq (c : Dev nD) (t : Fin cfg0.N) :
    (dats m 0 c).flushed 2 t = ((cfg0.win 2).blk t).view.read (Elt Ideal) (result m c) := by
  rw [flushed2]
  unfold out0_2
  rw [View.canon_unit_zero zero_offsets]
  simp only [View.ld_unit_zero (S := S1024x64) zero_offsets]
  obtain ⟨e0, e1, e2, e3⟩ := windows_of_tile t
  show (k0_pay1 (F := Ideal) (iblk m c 0 t) (iblk m c 1 t) : S1024x1024.Idx → EReal)
    = fun j : S1024x1024.Idx => result m c (((cfg0.win 2).blk t).view.emb j)
  funext j
  obtain ⟨p, q, rfl⟩ : ∃ (p q : Fin 1024), j = ix2 p q := ⟨j 0, j 1, eq_ix2 j⟩
  refine (Payload.payload_at (iblk m c 0 t) (iblk m c 1 t) p q).trans ?_
  show gauss (row (iblk m c 0 t) p) (row (iblk m c 1 t) q)
    = gauss (row (V m c main_arg0) (((cfg0.win 2).blk t).view.emb (ix2 p q) 0))
        (row (V m c main_arg1) (((cfg0.win 2).blk t).view.emb (ix2 p q) 1))
  have h0 : row (iblk m c 0 t) p = row (V m c main_arg0) (((cfg0.win 2).blk t).view.emb (ix2 p q) 0) := by
    funext k
    show V m c main_arg0 (((cfg0.win 0).blk t).view.emb (ix2 p k)) = V m c main_arg0 (ix2 (((cfg0.win 2).blk t).view.emb (ix2 p q) 0) k)
    refine congrArg (V m c main_arg0) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 64 + 1 * k.val = k.val; omega
  have h1 : row (iblk m c 1 t) q = row (V m c main_arg1) (((cfg0.win 2).blk t).view.emb (ix2 p q) 1) := by
    funext k
    show V m c main_arg1 (((cfg0.win 1).blk t).view.emb (ix2 q k)) = V m c main_arg1 (ix2 (((cfg0.win 2).blk t).view.emb (ix2 p q) 1) k)
    refine congrArg (V m c main_arg1) (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 64 + 1 * k.val = k.val; omega
  rw [h0, h1]

/-- An index of the result lies in a point's tile iff each coordinate lies in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the tile of some point that writes back. -/
theorem covered (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := point_of_tile ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the Gaussian kernel matrix of the two argument arrays. -/
theorem final (c : Dev nD) : (dats m 0 c).arrAt 2 cfg0.N = gram (m ((c : Thread nD τ).loc main_arg0)) (m ((c : Thread nD τ).loc main_arg1)) :=
  (dats m 0 c).arrAt_eq_of_cover 2 (result m c) (fun t _ => flushed_eq m c t) covered

/-- The kernel's run, read: the result array ends at the Gaussian kernel matrix of the arguments, which end unchanged. -/
theorem run : θ_run defs (onTc (τ := τ) (main (F := Ideal))) ⟨m, fun _ => 0, ρ⟩ fun r => ∀ c : Dev nD,
      r.2.mem ((c : Thread nD τ).loc main_v0) = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Gauss.Tiles

end
-- ==== Proof.GaussReference.lean ====
/-
  The reference computes the Gaussian kernel matrix.

  Read one operation at a time, the reference's last stage at (p, q) is
  one · exp (−½ · max ((0 + ∑ₖ a[p,k]²) broadcast along the row + (0 + ∑ₖ b[q,k]²) broadcast down the column
                        − two · ∑ₖ a[p,k] · b[q,k], zero)):
  the two row sums start from the zero word, which denotes 0 and drops out; the first is laid out as a column [8192, 1]
  and the second as a row [1, 8192] before both are broadcast to the [8192, 8192] matrix, so at (p, q) they read rows p
  and q; the contraction reads the left operand at (p, k) and the right at (q, k). That is `gram a b` at (p, q).
-/
import proofs.«105159_j58720792871618_1_alg».proof.Proof.Gen.ReferenceIdeal.Read
import proofs.«105159_j58720792871618_1_alg».proof.Proof.GaussSpec

noncomputable section

open scoped BigOperators

namespace Cert.Gauss.Reference

open Idealize.ShloMosaic Idealize.ShloMosaic.ValueIdx Cert.ReferenceIdeal Cert.ReferenceIdeal.Read Cert.Gauss

/-- The broadcast column of squared norms, traced back through its three layout steps, reads the squares at (p, k). -/
theorem idx_sq_left (p q : Fin 8192) (k : Fin 64) :
    idx_main_v1 (idx_main_v5 (idx_main_v7 (ix2 p q))) k = ix2 p k :=
  funext fun a => Fin.ext (by match a with | ⟨0, _⟩ => rfl | ⟨1, _⟩ => rfl)

/-- The broadcast row of squared norms, traced back likewise, reads the squares at (q, k). -/
theorem idx_sq_right (p q : Fin 8192) (k : Fin 64) :
    idx_main_v3 (idx_main_v6 (idx_main_v8 (ix2 p q))) k = ix2 q k :=
  funext fun a => Fin.ext (by match a with | ⟨0, _⟩ => rfl | ⟨1, _⟩ => rfl)

/-- The contraction reads its left operand at (p, k) … -/
theorem idx_dot_left (p q : Fin 8192) (k : Fin 64) : lidx_main_v4 (ix2 p q) k = ix2 p k :=
  funext fun a => Fin.ext (by match a with | ⟨0, _⟩ => rfl | ⟨1, _⟩ => rfl)

/-- … and its right operand at (q, k). -/
theorem idx_dot_right (p q : Fin 8192) (k : Fin 64) : ridx_main_v4 (ix2 p q) k = ix2 q k :=
  funext fun a => Fin.ext (by match a with | ⟨0, _⟩ => rfl | ⟨1, _⟩ => rfl)

/-- The reference's result, as a function of its two arguments, is the Gaussian kernel matrix. -/
theorem stage_eq_gram (a b : (⟨S8192x64, .f32⟩ : BufTy).Contents (Elt Ideal)) :
    val_main_v19 (F := Ideal) a b = gram a b := by
  funext i
  obtain ⟨p, q, rfl⟩ : ∃ (p : Fin 8192) (q : Fin 8192), i = ix2 p q := ⟨i 0, i 1, eq_ix2 i⟩
  rw [val_main_v19_apply, val_main_v18_apply, val_main_cst_4_apply, val_main_v17_apply, val_main_v16_apply,
    val_main_v15_apply, val_main_cst_3_apply, val_main_v14_apply, val_main_v13_apply, val_main_cst_2_apply,
    val_main_v12_apply, val_main_v11_apply, val_main_v10_apply, val_main_cst_1_apply, val_main_v4_apply,
    val_main_v9_apply, val_main_v7_apply, val_main_v5_apply, val_main_v1_apply, val_main_v8_apply, val_main_v6_apply,
    val_main_v3_apply, val_main_cst_apply, val_main_cst_0_apply]
  simp only [val_main_v0_apply, val_main_v2_apply, idx_sq_left, idx_sq_right, idx_dot_left, idx_dot_right,
    Ideal.ofBits_def, Ideal.mulf_def, Ideal.addf_def, Ideal.subf_def, Ideal.maximumf_def, Ideal.hostUnary_exp_def,
    Ideal.ofBits_zero_f32, zero_add]
  rw [gram_ix2]
  simp only [gauss, inner, row, Ideal.ofBits_zero_f32]

end Cert.Gauss.Reference

end
-- ==== Proof.lean ====
/-
  The Gaussian kernel matrix of two families of 8192 points in 64 dimensions: a tiled kernel against the plain formula.

  Both programs compute, for rows a_p of the first argument and b_q of the second,
      one · exp (−½ · max ((‖a_p‖² + ‖b_q‖²) − two · ⟨a_p, b_q⟩, zero)),
  the squared distance expanded as the sum of the two squared norms less the doubled inner product and clamped at zero,
  with the same four float words for one, −½, two and zero, and with the operations in the same order.

  The kernel works tile by tile on an 8 × 8 grid: for a [1024, 1024] tile it contracts a [1024, 64] block of each family
  (after narrowing both to a shorter float format, which changes nothing on the extended reals) into a zero accumulator,
  takes each block's row sums of squares, lays the first as a column and the second, transposed, as a row, and combines
  them pointwise. The reference takes the two row sums of squares of the whole arrays starting from the zero word,
  contracts the whole arrays, broadcasts and combines. On the extended reals the contraction into zero and the host's
  contraction are the same sum ∑ₖ a[p,k] · b[q,k], a lane sum and a host sum from zero are the same sum ∑ₖ x[r,k]², and
  the kernel's exponential and the host's are one function; no law of arithmetic is needed beyond 0 + s = s, so the
  inputs' finiteness is not used. Each tile is the matching block of the matrix of the whole families, and the tiles
  cover the result.

  The three programs run and leave their arguments unchanged; the kernel's idealization rewrote no operation.
-/
import proofs.«105159_j58720792871618_1_alg».proof.Defs
import proofs.«105159_j58720792871618_1_alg».proof.Proof.Gen.Kernel
import proofs.«105159_j58720792871618_1_alg».proof.Proof.Gen.Kernel.Skeleton
import proofs.«105159_j58720792871618_1_alg».proof.Proof.Gen.Kernel.Launch
import proofs.«105159_j58720792871618_1_alg».proof.Proof.Gen.Kernel.Points
import proofs.«105159_j58720792871618_1_alg».proof.Proof.Gen.Kernel.Frame
import proofs.«105159_j58720792871618_1_alg».proof.Proof.Gen.KernelIdeal
import proofs.«105159_j58720792871618_1_alg».proof.Proof.Gen.KernelIdeal.Skeleton
import proofs.«105159_j58720792871618_1_alg».proof.Proof.Gen.KernelIdeal.Launch
import proofs.«105159_j58720792871618_1_alg».proof.Proof.Gen.KernelIdeal.Points
import proofs.«105159_j58720792871618_1_alg».proof.Proof.Gen.KernelIdeal.Frame
import proofs.«105159_j58720792871618_1_alg».proof.Proof.Gen.ReferenceIdeal
import proofs.«105159_j58720792871618_1_alg».proof.Proof.Gen.Pre_finite_inputs
import proofs.«105159_j58720792871618_1_alg».proof.Proof.Gen.KernelIdeal.Value
import proofs.«105159_j58720792871618_1_alg».proof.Proof.Gen.ReferenceIdeal.Run
import proofs.«105159_j58720792871618_1_alg».proof.Proof.Gen.ReferenceIdeal.Read
import proofs.«105159_j58720792871618_1_alg».proof.Proof.GaussTiles
import proofs.«105159_j58720792871618_1_alg».proof.Proof.GaussReference
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's both end at the Gaussian kernel matrix of the
    two argument arrays: the kernel's tile by tile, the reference's stage by stage. -/
theorem algebraic : Cert.algebraic_KernelIdeal_ReferenceIdeal := by
  intro m ρ m' ρ' _ hagree
  refine ⟨fun c => Cert.Gauss.gram (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Gauss.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Gauss.Reference.stage_eq_gram, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
